-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x2048 : Shape := ⟨3, ![4, 8192, 2048]⟩
abbrev S2048 : Shape := ⟨1, ![2048]⟩
abbrev S4x2048 : Shape := ⟨2, ![4, 2048]⟩
abbrev S_ : Shape := ⟨0, ![]⟩

class Facts : Prop where
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S4x2048 : S_.BroadcastsInDim S4x2048 (![] : Fin 0 → Fin S4x2048.rank)
  reducesTo_S4x2048_S_d0_1 : S4x2048.ReducesTo [0, 1] S_

variable [Facts]

def fn {F : FTy → Type} [FloatOps F] (main_arg0 : FVec F S4x8192x2048 .f32) (main_arg1 : FVec F S2048 .f32) (main_arg2 : FVec F S4x2048 .f32) : IVec S_ 1 :=
  let main_v0 : FVec F S4x8192x2048 .f32 := Host.absf main_arg0
  let main_cst : FVec F S_ .f32 := constant S_ .f32 0x7F800000#32
  let main_v1 : FVec F S4x8192x2048 .f32 := broadcastInDim S4x8192x2048 ![] bcast_S_S4x8192x2048 main_cst
  let main_v2 : IVec S4x8192x2048 1 := cmpf .olt main_v0 main_v1
  let main_c : IVec S_ 1 := constantI S_ 1 1#1
  let main_v3 : IVec S_ 1 := (fun x v => Host.reduce IntOp.andi x v reducesTo_S4x8192x2048_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S4x2048 .f32 := Host.absf main_arg2
  let main_cst_2 : FVec F S_ .f32 := constant S_ .f32 0x7F800000#32
  let main_v10 : FVec F S4x2048 .f32 := broadcastInDim S4x2048 ![] bcast_S_S4x2048 main_cst_2
  let main_v11 : IVec S4x2048 1 := cmpf .olt main_v9 main_v10
  let main_c_3 : IVec S_ 1 := constantI S_ 1 1#1
  let main_v12 : IVec S_ 1 := (fun x v => Host.reduce IntOp.andi x v reducesTo_S4x2048_S_d0_1 h_S_) main_v11 main_c_3
  let main_v13 : IVec S_ 1 := andi main_v8 main_v12
  main_v13
-- ==== Kernel.lean ====
abbrev S4x8192x2048 : Shape := ⟨3, ![4, 8192, 2048]⟩
abbrev S2048 : Shape := ⟨1, ![2048]⟩
abbrev S4x2048 : Shape := ⟨2, ![4, 2048]⟩
abbrev S32768x2048 : Shape := ⟨2, ![32768, 2048]⟩
abbrev S32768x4 : Shape := ⟨2, ![32768, 4]⟩
abbrev S2048x2048 : Shape := ⟨2, ![2048, 2048]⟩
abbrev S2048x4 : Shape := ⟨2, ![2048, 4]⟩
abbrev S2048x1 : Shape := ⟨2, ![2048, 1]⟩
abbrev S1x2048 : Shape := ⟨2, ![1, 2048]⟩
abbrev S4x8192x4 : Shape := ⟨3, ![4, 8192, 4]⟩

abbrev nBuf : Space → Nat
  | .hbm => 6
  | .vmem => 6
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S4x2048, .f32⟩
  | .hbm, ⟨3, _⟩ => ⟨S32768x2048, .f32⟩
  | .hbm, ⟨4, _⟩ => ⟨S32768x4, .f32⟩
  | .hbm, ⟨5, _⟩ => ⟨S4x8192x4, .f32⟩
  | .local _ .vmem, ⟨0, _⟩ => ⟨S2048x2048, .f32⟩
  | .local _ .vmem, ⟨1, _⟩ => ⟨S2048x2048, .f32⟩
  | .local _ .vmem, ⟨2, _⟩ => ⟨S2048, .f32⟩
  | .local _ .vmem, ⟨3, _⟩ => ⟨S4x2048, .f32⟩
  | .local _ .vmem, ⟨4, _⟩ => ⟨S2048x4, .f32⟩
  | .local _ .vmem, ⟨5, _⟩ => ⟨S2048x4, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x8192x2048_S32768x2048 : S4x8192x2048.ShapeCasts S32768x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  reduces_S2048x2048_S2048 : S2048x2048.Reduces [1] S2048
  shapeCasts_S2048_S2048x1 : S2048.ShapeCasts S2048x1
  broadcasts_S2048x1_S2048x2048 : S2048x1.Broadcasts S2048x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S2048x2048 : S1x2048.Broadcasts S2048x2048
  inb_S4x2048_S4x2048_0_0 : ∀ a, (![0, 0] : Fin 2 → Nat) a + S4x2048.size a ≤ S4x2048.size a
  h_S4x2048 : 0 < S4x2048.numel
  transposes_S4x2048_p1_0_S2048x4 : S4x2048.Transposes [1, 0] S2048x4
  inb_S2048x4_S2048x4_0_0 : ∀ a, (![0, 0] : Fin 2 → Nat) a + S2048x4.size a ≤ S2048x4.size a
  h_S2048x4 : 0 < S2048x4.numel
  shapeCasts_S32768x4_S4x8192x4 : S32768x4.ShapeCasts S4x8192x4
  dot_S2048x2048_S2048x4_S2048x4_1_0_0_1_n_n_wf : DotDims.WF S2048x2048 S2048x4 S2048x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S32768x2048.size a
  hwx0_0 : ∀ i : grid0.Coords, EltTy.bits .f32 = 32 ∨ (Rect.block (s := S32768x2048) S2048x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S2048.size a
  hwx0_1 : ∀ i : grid0.Coords, EltTy.bits .f32 = 32 ∨ (Rect.block (s := S2048) S2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x2048.size a ≤ S4x2048.size a
  hwx0_2 : ∀ i : grid0.Coords, EltTy.bits .f32 = 32 ∨ (Rect.block (s := S4x2048) S4x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x4.size a ≤ S32768x4.size a
  hwx0_3 : ∀ i : grid0.Coords, EltTy.bits .f32 = 32 ∨ (Rect.block (s := S32768x4) S2048x4.size (cc0_transform_3 i) (hinb0_3 i)).WholeWords (EltTy.packing .f32)

variable [Facts₀]

def dot_S2048x2048_S2048x4_S2048x4_1_0_0_1_n_n : DotDims S2048x2048 S2048x4 S2048x4 where
  lhsContracting := [1]
  rhsContracting := [0]
  lhsNonContracting := [0]
  rhsNonContracting := [1]
  lhsBatch := []
  rhsBatch := []
  wf := dot_S2048x2048_S2048x4_S2048x4_1_0_0_1_n_n_wf

abbrev win0_0 : Pipeline.Window sig grid0 :=
  Pipeline.Window.ofSpec (Memref.whole main_v0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x4.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x2048 : Shape := ⟨3, ![4, 8192, 2048]⟩
abbrev S2048 : Shape := ⟨1, ![2048]⟩
abbrev S4x2048 : Shape := ⟨2, ![4, 2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S4x8192x4 : Shape := ⟨3, ![4, 8192, 4]⟩

abbrev nBuf : Space → Nat
  | .hbm => 24
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S4x2048, .f32⟩
  | .hbm, ⟨3, _⟩ => ⟨S4x8192x2048, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x2048, .f32⟩
  | .hbm, ⟨15, _⟩ => ⟨S4x8192x2048, .f32⟩
  | .hbm, ⟨16, _⟩ => ⟨S1x1x2048, .f32⟩
  | .hbm, ⟨17, _⟩ => ⟨S4x8192x2048, .f32⟩
  | .hbm, ⟨18, _⟩ => ⟨S4x8192x2048, .f32⟩
  | .hbm, ⟨19, _⟩ => ⟨S4x8192x4, .f32⟩
  | .hbm, ⟨20, _⟩ => ⟨S_, .f32⟩
  | .hbm, ⟨21, _⟩ => ⟨S4x8192x4, .f32⟩
  | .hbm, ⟨22, _⟩ => ⟨S4x8192x4, .f32⟩
  | .hbm, ⟨23, _⟩ => ⟨S4x8192x4, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  reducesTo_S4x8192x2048_S4x8192_d2 : S4x8192x2048.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x2048_0_1_2 : S4x8192x1.BroadcastsInDim S4x8192x2048 (![0, 1, 2] : Fin 3 → Fin S4x8192x2048.rank)
  bcast_S2048_S1x1x2048_2 : S2048.BroadcastsInDim S1x1x2048 (![2] : Fin 1 → Fin S1x1x2048.rank)
  bcast_S1x1x2048_S4x8192x2048_0_1_2 : S1x1x2048.BroadcastsInDim S4x8192x2048 (![0, 1, 2] : Fin 3 → Fin S4x8192x2048.rank)
  bcast_S_S4x8192x4 : S_.BroadcastsInDim S4x8192x4 (![] : Fin 0 → Fin S4x8192x4.rank)
  dot_S4x8192x2048_S4x2048_S4x8192x4_2_1_01_0_n_n_wf : DotDims.WF S4x8192x2048 S4x2048 S4x8192x4 [2] [1] [0, 1] [0] [] []

variable [Facts₀]

def dot_S4x8192x2048_S4x2048_S4x8192x4_2_1_01_0_n_n : DotDims S4x8192x2048 S4x2048 S4x8192x4 where
  lhsContracting := [2]
  rhsContracting := [1]
  lhsNonContracting := [0, 1]
  rhsNonContracting := [0]
  lhsBatch := []
  rhsBatch := []
  wf := dot_S4x8192x2048_S4x2048_S4x8192x4_2_1_01_0_n_n_wf

class Facts : Prop extends Facts₀ where

variable [Facts]
-- ==== Proof.RouterSpec.lean ====
/-
  The routing gate of one row, and the layout steps of a kernel body that computes it.

  A row `x` of `D` entries is divided by its root-mean-square — the square root of the mean of the squares
  plus a small constant —, scaled entry by entry by a weight `g`, contracted against each of the `E` rows of a
  matrix `W`, multiplied by a scale and passed through the hyperbolic tangent:

      gate x g W e = tanh ((Σ_k (x_k / rms x · g_k) · W_{e k}) · scale),   rms x = sqrt ((Σ_j x_j · x_j) / n + eps).

  Everything is generic in the extents and in the three constants, and is read on the extended reals; no law of
  arithmetic is used: the kernel and the host compute this one term, in this order.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Router

open Idealize.ShloMosaic Idealize.ShloMosaic.ValueIdx

/-- The root-mean-square of a row: the sum of the squares over `n`, plus `eps`, under the square root. -/
def rms {D : ℕ} (n eps : EReal) (x : Fin D → EReal) : EReal :=
  Ideal.sqrt (Ideal.div (∑ j : Fin D, x j * x j) n + eps)

/-- The gate of expert `e` on the row `x`: the normalised row, weighted by `g`, against row `e` of `W`,
    times `scale`, through the hyperbolic tangent. -/
def gate {D E : ℕ} (n eps scale : EReal) (x g : Fin D → EReal) (W : Fin E → Fin D → EReal) (e : Fin E) : EReal :=
  Ideal.tanh ((∑ k : Fin D, (Ideal.div (x k) (rms n eps x) * g k) * W e k) * scale)

/-- The gate depends on the row, the weight and the matrix only through their entries. -/
theorem gate_congr {D E : ℕ} (n eps scale : EReal) {x x' g g' : Fin D → EReal} {W W' : Fin E → Fin D → EReal} {e e' : Fin E}
    (hx : ∀ k, x k = x' k) (hg : ∀ k, g k = g' k) (hW : ∀ e k, W e k = W' e k) (he : e = e') :
    gate n eps scale x g W e = gate n eps scale x' g' W' e' := by
  have ex : x = x' := funext hx
  have eg : g = g' := funext hg
  have eW : W = W' := funext fun e => funext (hW e)
  rw [ex, eg, eW, he]

/-! ## Layout steps read at an index -/

/-- A vector cast to one column reads, at `(p, u)`, the vector at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A lane sum along the rows, read at row `p`: the sum of that row's entries. -/
theorem rowSum_apply {a b : ℕ} (v : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin b, v (ix2 p k) := by
  rw [Ideal.multiReduction_add_single]
  refine Finset.sum_congr rfl fun k _ => ?_
  exact congrArg v (funext fun c => Fin.ext (by match c with | ⟨0, _⟩ => rfl | ⟨1, _⟩ => rfl))

end Router

end
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.KernelBody.lean ====
/-
  The kernel's body at one entry of its output block.

  The body loads a block of 2048 rows, the weight vector and the whole 4 × 2048 matrix, and stores one value: the
  gate of every row of the block against every row of the matrix.  Read at the entry `(p, q)` of the stored value
  it is the gate of expert `q` on row `p` of the loaded block: the lane sum of the squares is the row's sum, the
  column of root-mean-squares broadcast across the lanes is the row's own, the weight cast to one row and broadcast
  down the rows is the weight itself, and the product with the transposed matrix into the zero splat is the sum over
  the lanes against row `q` of the matrix.
-/
import proofs.«181583_j57784490000784_1_alg».proof.Proof.Gen.KernelIdeal.Skeleton
import proofs.«181583_j57784490000784_1_alg».proof.Proof.RouterSpec
import proofs.«181583_j57784490000784_1_alg».proof.Proof.LibRowOps

noncomputable section

open scoped BigOperators

namespace Cert.KernelIdeal.Body

open Cert.KernelIdeal Cert.KernelIdeal.Gen Idealize.ShloMosaic Idealize.ShloMosaic.ValueIdx

/-- The three literals of the body at the ideal values: the row length, the stabiliser, the scale. -/
abbrev cN : EReal := Ideal.ofBits .f32 0x45000000#32
abbrev cEps : EReal := Ideal.ofBits .f32 0x358637BD#32
abbrev cScale : EReal := Ideal.ofBits .f32 0x40400000#32

/-- The column of root-mean-squares of the block's rows. -/
def rmsCol (x0 : FVec Ideal S2048x2048 .f32) : FVec Ideal S2048x1 .f32 :=
  sqrt (addf (divf (shapeCast S2048x1 (multiReduction .add [1] S2048 (mulf x0 x0) 0x00000000#32 reduces_S2048x2048_S2048 (.inl rfl) rfl)
      shapeCasts_S2048_S2048x1) (broadcast S2048x1 (Scalar.ofBits .f32 0x45000000#32)))
    (broadcast S2048x1 (Scalar.ofBits .f32 0x358637BD#32)))

/-- The block normalised row by row and weighted lane by lane. -/
def normed (x0 : FVec Ideal S2048x2048 .f32) (x1 : FVec Ideal S2048 .f32) : FVec Ideal S2048x2048 .f32 :=
  mulf (divf x0 (broadcastTo S2048x2048 (rmsCol x0) broadcasts_S2048x1_S2048x2048))
    (broadcastTo S2048x2048 (shapeCast S1x2048 x1 shapeCasts_S2048_S1x2048) broadcasts_S1x2048_S2048x2048)

/-- The stored value in these words. -/
theorem pay_eq (x0 : FVec Ideal S2048x2048 .f32) (x1 : FVec Ideal S2048 .f32) (x2 : FVec Ideal S4x2048 .f32) :
    k0_pay1 (F := Ideal) x0 x1 x2
      = tanh (mulf (matmul dot_S2048x2048_S2048x4_S2048x4_1_0_0_1_n_n none (normed x0 x1)
          (transpose S2048x4 [1, 0] x2 transposes_S4x2048_p1_0_S2048x4) (constant S2048x4 .f32 0x00000000#32))
        (broadcast S2048x4 (Scalar.ofBits .f32 0x40400000#32))) := by
  unfold k0_pay1 normed rmsCol
  simp only [shapeCast_self]

/-- The root-mean-square column at row `p`. -/
theorem rmsCol_apply (x0 : FVec Ideal S2048x2048 .f32) (p : Fin 2048) (u : Fin 1) :
    rmsCol x0 (ix2 p u) = Router.rms cN cEps (fun k => x0 (ix2 p k)) := by
  unfold rmsCol Router.rms
  show Ideal.sqrt (Ideal.div (shapeCast S2048x1 _ shapeCasts_S2048_S2048x1 (ix2 p u)) cN + cEps) = _
  rw [Router.shapeCast_a_a1_apply]
  exact congrArg (fun s => Ideal.sqrt (Ideal.div s cN + cEps))
    (Router.rowSum_apply (mulf x0 x0) 0x00000000#32 reduces_S2048x2048_S2048 (.inl rfl) rfl p)

/-- The normalised, weighted block at `(p, k)`. -/
theorem normed_apply (x0 : FVec Ideal S2048x2048 .f32) (x1 : FVec Ideal S2048 .f32) (p k : Fin 2048) :
    normed x0 x1 (ix2 p k) = Ideal.div (x0 (ix2 p k)) (Router.rms cN cEps (fun j => x0 (ix2 p j))) * x1 (ix1 k) := by
  unfold normed
  show Ideal.div (x0 (ix2 p k)) (broadcastTo S2048x2048 (rmsCol x0) broadcasts_S2048x1_S2048x2048 (ix2 p k))
      * broadcastTo S2048x2048 (shapeCast S1x2048 x1 shapeCasts_S2048_S1x2048) broadcasts_S1x2048_S2048x2048 (ix2 p k) = _
  rw [RowOps.broadcastTo_a1_ab_apply, RowOps.bias_cast_apply, rmsCol_apply]

/-- THE BODY AT AN ENTRY: the gate of expert `q` on row `p` of the loaded block. -/
theorem pay_apply (x0 : FVec Ideal S2048x2048 .f32) (x1 : FVec Ideal S2048 .f32) (x2 : FVec Ideal S4x2048 .f32)
    (p : Fin 2048) (q : Fin 4) :
    k0_pay1 (F := Ideal) x0 x1 x2 (ix2 p q)
      = Router.gate cN cEps cScale (fun k => x0 (ix2 p k)) (fun k => x1 (ix1 k)) (fun e k => x2 (ix2 e k)) q := by
  rw [pay_eq]
  unfold Router.gate
  show Ideal.tanh (matmul dot_S2048x2048_S2048x4_S2048x4_1_0_0_1_n_n none (normed x0 x1)
      (transpose S2048x4 [1, 0] x2 transposes_S4x2048_p1_0_S2048x4) (constant S2048x4 .f32 0x00000000#32) (ix2 p q) * cScale) = _
  refine (congrArg (fun s => Ideal.tanh (s * cScale))
    (RowOps.matmul_plain_apply (M := 2048) (K := 2048) (N := 4) dot_S2048x2048_S2048x4_S2048x4_1_0_0_1_n_n rfl none (normed x0 x1)
      (transpose S2048x4 [1, 0] x2 transposes_S4x2048_p1_0_S2048x4) p q)).trans ?_
  refine congrArg (fun s => Ideal.tanh (s * cScale)) (Finset.sum_congr rfl fun k _ => ?_)
  rw [normed_apply, transpose_ix2_apply]

end Cert.KernelIdeal.Body

end
-- ==== Proof.KernelArray.lean ====
/-
  The kernel's output array after the run.

  The grid has sixteen points.  Point `t` is handed rows `2048 t … 2048 t + 2047` of the flattened input, the
  whole weight vector and the whole matrix, and writes back rows `2048 t … 2048 t + 2047` of the output.  What it
  writes is therefore the block at `t` of ONE function of the arrays the region finds: entry `(r, e)` is the gate of
  expert `e` on row `r`.  The sixteen blocks tile the output, so the output array ends holding that function.
-/
import proofs.«181583_j57784490000784_1_alg».proof.Proof.Gen.KernelIdeal.Frame
import proofs.«181583_j57784490000784_1_alg».proof.Proof.KernelBody
import Idealize.ShloMosaic.Lib.Pipeline.Value

noncomputable section

open scoped BigOperators

namespace Cert.KernelIdeal.Arr

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The arrays the region finds, at their literal types: the flattened input, the weight, the matrix. -/
abbrev rows (c : Dev nD) : FVec Ideal S32768x2048 .f32 := V m c main_v0
abbrev weight (c : Dev nD) : FVec Ideal S2048 .f32 := V m c main_arg1
abbrev matrix (c : Dev nD) : FVec Ideal S4x2048 .f32 := V m c main_arg2

/-- The output as one function of those arrays: entry `(r, e)` is the gate of expert `e` on row `r`. -/
def gates (X : FVec Ideal S32768x2048 .f32) (g : FVec Ideal S2048 .f32) (W : FVec Ideal S4x2048 .f32) :
    FVec Ideal S32768x4 .f32 :=
  fun i => Router.gate Body.cN Body.cEps Body.cScale (fun k => X (ix2 (⟨(i 0).val, (i 0).isLt⟩ : Fin 32768) k))
    (fun k => g (ix1 k)) (fun e k => W (ix2 e k)) (⟨(i 1).val, (i 1).isLt⟩ : Fin 4)

/-- The printed index maps over the grid: the input's and the output's row blocks move with the point, the weight's
    and the matrix's stay. -/
theorem idx_facts : ∀ t : Fin cfg0.N, win0_0.index t (0 : Fin 2) = t.val ∧ win0_0.index t (1 : Fin 2) = 0
    ∧ win0_1.index t (0 : Fin 1) = 0 ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input's block at point `t` is rows `2048 t …` of the flattened input. -/
theorem rows_blk (c : Dev nD) (t : Fin cfg0.N) (p k : Fin 2048) (r : Fin 32768) (hr : r.val = t.val * 2048 + p.val) :
    (iblk m c 0 t : FVec Ideal S2048x2048 .f32) (ix2 p k) = rows m c (ix2 r k) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 2048 + 1 * p.val = r.val; rw [e0, hr]; omega
  | ⟨1, _⟩ => show win0_0.index t (1 : Fin 2) * 2048 + 1 * k.val = k.val; rw [e1]; omega

/-- The weight's block at any point is the weight. -/
theorem weight_blk (c : Dev nD) (t : Fin cfg0.N) (k : Fin 2048) :
    (iblk m c 1 t : FVec Ideal S2048 .f32) (ix1 k) = weight m c (ix1 k) := by
  obtain ⟨-, -, e2, -⟩ := idx_facts t
  unfold iblk
  rw [View.read_apply]
  show V m c main_arg1 _ = V m c main_arg1 _
  congr 1
  funext a
  apply Fin.ext
  match a with
  | ⟨0, _⟩ => show win0_1.index t (0 : Fin 1) * 2048 + 1 * k.val = k.val; rw [e2]; omega

/-- The matrix's block at any point is the matrix. -/
theorem matrix_blk (c : Dev nD) (t : Fin cfg0.N) (e : Fin 4) (k : Fin 2048) :
    (iblk m c 2 t : FVec Ideal S4x2048 .f32) (ix2 e k) = matrix m c (ix2 e k) := by
  obtain ⟨-, -, -, e3, e4, -⟩ := idx_facts t
  unfold iblk
  rw [View.read_apply]
  show V m c main_arg2 _ = V m c main_arg2 _
  congr 1
  funext a
  apply Fin.ext
  match a with
  | ⟨0, _⟩ => show win0_2.index t (0 : Fin 2) * 4 + 1 * e.val = e.val; rw [e3]; omega
  | ⟨1, _⟩ => show win0_2.index t (1 : Fin 2) * 2048 + 1 * k.val = k.val; rw [e4]; omega

/-- WHAT POINT `t` WRITES BACK is the block at `t` of `gates` of the arrays the region finds. -/
theorem flushed_eq (c : Dev nD) (t : Fin cfg0.N) :
    (dats m 0 c).flushed 3 t
      = ((cfg0.win 3).blk t).view.read (Elt Ideal) (gates (rows m c) (weight m c) (matrix m c)) := by
  show (cfg0.win 3).cut (grid0.coords t) ((dats m 0 c).after 3 t) = _
  rw [after0_3]
  unfold out0_3
  rw [View.canon_unit_zero hz2]
  simp only [View.ld_unit_zero (S := S2048x2048) hz2, View.ld_unit_zero (S := S2048) hz1, View.ld_unit_zero (S := S4x2048) hz2]
  funext j
  obtain ⟨p, q, rfl⟩ : ∃ (p : Fin 2048) (q : Fin 4), j = ix2 p q := ⟨j 0, j 1, eq_ix2 j⟩
  obtain ⟨-, -, -, -, -, e5, e6⟩ := idx_facts t
  show k0_pay1 (F := Ideal) (iblk m c 0 t) (iblk m c 1 t) (iblk m c 2 t) (ix2 p q)
    = gates (rows m c) (weight m c) (matrix m c) (((cfg0.win 3).blk t).view.emb (ix2 p q))
  refine (Body.pay_apply (iblk m c 0 t) (iblk m c 1 t) (iblk m c 2 t) p q).trans ?_
  unfold gates
  refine Router.gate_congr _ _ _ (fun k => ?_) (fun k => ?_) (fun e k => ?_) ?_
  · refine rows_blk m c t p k _ ?_
    show win0_3.index t (0 : Fin 2) * 2048 + 1 * p.val = t.val * 2048 + p.val
    rw [e5]; omega
  · exact weight_blk m c t k
  · exact matrix_blk m c t e k
  · apply Fin.ext
    show q.val = win0_3.index t (1 : Fin 2) * 4 + 1 * q.val
    rw [e6]; omega

/-- An index of the output is in point `t`'s block iff each coordinate is in the block's range on its axis. -/
theorem mem_blk (t : Fin cfg0.N) (i : S32768x4.Idx) :
    i ∈ ((cfg0.win 3).blk t).view.set ↔ ∀ a : Fin 2, win0_3.index t a * S2048x4.size a ≤ (i a).val
      ∧ (i a).val < win0_3.index t a * S2048x4.size a + S2048x4.size a := by
  show i ∈ ((View.whole main_v1).slice (win0_3.rect t)).set ↔ _
  rw [View.set_slice_whole, Rect.mem_set_unit]
  exact Iff.rfl

/-- Every row of the output is in the block of the point that holds it: row `r` in the block of point `r / 2048`. -/
theorem cover (i : S32768x4.Idx) :
    ∃ t : Fin cfg0.N, (cfg0.win 3).flush t = true ∧ i ∈ ((cfg0.win 3).blk t).view.set := by
  have hN : grid0.N = 16 := N_0
  have hi0 : (i 0).val < 32768 := (i 0).isLt
  have hi1 : (i 1).val < 4 := (i 1).isLt
  have ht : (i 0).val / 2048 < cfg0.N := by show _ < grid0.N; rw [hN]; omega
  obtain ⟨-, -, -, -, -, e5, e6⟩ := idx_facts ⟨(i 0).val / 2048, ht⟩
  refine ⟨⟨(i 0).val / 2048, ht⟩, flush0_3 _, ?_⟩
  rw [mem_blk]
  intro a
  match a with
  | ⟨0, _⟩ =>
    show win0_3.index ⟨(i 0).val / 2048, ht⟩ (0 : Fin 2) * 2048 ≤ (i 0).val
      ∧ (i 0).val < win0_3.index ⟨(i 0).val / 2048, ht⟩ (0 : Fin 2) * 2048 + 2048
    rw [e5]; show (i 0).val / 2048 * 2048 ≤ (i 0).val ∧ (i 0).val < (i 0).val / 2048 * 2048 + 2048; omega
  | ⟨1, _⟩ =>
    show win0_3.index ⟨(i 0).val / 2048, ht⟩ (1 : Fin 2) * 4 ≤ (i 1).val
      ∧ (i 1).val < win0_3.index ⟨(i 0).val / 2048, ht⟩ (1 : Fin 2) * 4 + 4
    rw [e6]; omega

/-- THE OUTPUT ARRAY after the run is `gates` of the arrays the region finds. -/
theorem final (c : Dev nD) : (dats m 0 c).arrAt 3 cfg0.N = gates (rows m c) (weight m c) (matrix m c) :=
  (dats m 0 c).arrAt_eq_of_cover 3 (gates (rows m c) (weight m c) (matrix m c)) (fun t _ => flushed_eq m c t) cover

end Cert.KernelIdeal.Arr

end
-- ==== Proof.Flatten.lean ====
/-
  A three-axis array and its flattening to rows: the two leading axes `(b, s)` of extents `A`, `B` laid out in
  row-major order are the one axis `r = b · B + s` of extent `A · B`, and the last axis is untouched.  Both
  directions of the cast, read at an index.
-/
import Idealize.ShloMosaic.Lib.ValueIdx
import Idealize.ShloMosaic.Lib.Pipeline.Value

noncomputable section

namespace Router

open Idealize.ShloMosaic Idealize.ShloMosaic.ValueIdx

/-- The flattened array at `(r, k)` is the array at `(b, s, k)` when `r = b · B + s`. -/
theorem flatten_apply {α : Type} {A B C N : ℕ} (x : (⟨3, ![A, B, C]⟩ : Shape).Idx → α)
    (h : (⟨3, ![A, B, C]⟩ : Shape).ShapeCasts ⟨2, ![N, C]⟩) (b : Fin A) (s : Fin B) (k : Fin C) (r : Fin N)
    (hr : r.val = b.val * B + s.val) :
    shapeCast ⟨2, ![N, C]⟩ x h (ix2 r k) = x (ix3 b s k) :=
  shapeCast_apply x h _ _ (by
    rw [Shape.rowMajor_val_three, Shape.rowMajor_val_two]
    show (b.val * B + s.val) * C + k.val = r.val * C + k.val
    rw [hr])

/-- The array rebuilt from its rows at `(b, s, e)` is the row array at `(r, e)` when `r = b · B + s`. -/
theorem unflatten_apply {α : Type} {A B C N : ℕ} (y : (⟨2, ![N, C]⟩ : Shape).Idx → α)
    (h : (⟨2, ![N, C]⟩ : Shape).ShapeCasts ⟨3, ![A, B, C]⟩) (b : Fin A) (s : Fin B) (e : Fin C) (r : Fin N)
    (hr : r.val = b.val * B + s.val) :
    shapeCast ⟨3, ![A, B, C]⟩ y h (ix3 b s e) = y (ix2 r e) :=
  shapeCast_apply y h _ _ (by
    rw [Shape.rowMajor_val_three, Shape.rowMajor_val_two]
    show r.val * C + e.val = (b.val * B + s.val) * C + e.val
    rw [hr])

end Router

end
-- ==== Proof.KernelRun.lean ====
/-
  The kernel's program, run: its result and its arguments.

  Before the region the host flattens the input's two leading axes into rows; after it the host rebuilds them on the
  region's output.  So the program's result at `(b, s, e)` is the region's output at row `b · 8192 + s`, which is the
  gate of expert `e` on row `b · 8192 + s` of the flattened input, which is row `(b, s)` of the input.
-/
import proofs.«181583_j57784490000784_1_alg».proof.Proof.KernelArray
import proofs.«181583_j57784490000784_1_alg».proof.Proof.Flatten
import Idealize.ShloMosaic.Lib.StableHlo.Run

noncomputable section

open scoped BigOperators

namespace Cert.KernelIdeal.Arr

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The program's arguments at their literal types. -/
abbrev input (c : Dev nD) : FVec Ideal S4x8192x2048 .f32 := m ((c : Thread nD τ).loc main_arg0)
abbrev weightArg (c : Dev nD) : FVec Ideal S2048 .f32 := m ((c : Thread nD τ).loc main_arg1)
abbrev matrixArg (c : Dev nD) : FVec Ideal S4x2048 .f32 := m ((c : Thread nD τ).loc main_arg2)

/-- The region finds the input flattened to rows. -/
theorem rows_eq (c : Dev nD) :
    rows m c = shapeCast S32768x2048 (input m c) shapeCasts_S4x8192x2048_S32768x2048 := by
  show StableHlo.after hostOps0 (fun b => m (c, b)) (Proc.devRef .tc main_v0) = _
  after_results
  rfl

/-- It finds the weight and the matrix as launched. -/
theorem weight_eq (c : Dev nD) : weight m c = weightArg m c := V_main_arg1 m c
theorem matrix_eq (c : Dev nD) : matrix m c = matrixArg m c := V_main_arg2 m c

/-- The program's result in terms of its arguments: the gates of the flattened input, rebuilt to three axes. -/
def result (x : FVec Ideal S4x8192x2048 .f32) (g : FVec Ideal S2048 .f32) (W : FVec Ideal S4x2048 .f32) :
    FVec Ideal S4x8192x4 .f32 :=
  shapeCast S4x8192x4 (gates (shapeCast S32768x2048 x shapeCasts_S4x8192x2048_S32768x2048) g W) shapeCasts_S32768x4_S4x8192x4

/-- The host lines after the region leave the result buffer at `result` of the arguments. -/
theorem tail_eq (c : Dev nD) :
    Pipeline.afterTail₀ cfgs (dats m) 0 (V0 m) [hostOps1] c main_v2 = result (input m c) (weightArg m c) (matrixArg m c) := by
  unfold Pipeline.afterTail₀
  show StableHlo.after hostOps1 _ (Proc.devRef .tc main_v2) = _
  after_results
  unfold result
  rw [← rows_eq, ← weight_eq, ← matrix_eq, ← final]
  exact congrArg (fun A : FVec Ideal S32768x4 .f32 => shapeCast S4x8192x4 A shapeCasts_S32768x4_S4x8192x4)
    (Pipeline.withArrays_arr spec0 launch0.win.arr_inj c (V0 m c) (fun w => (dats m 0 c).arrAt w cfg0.N) 3)

/-- THE RUN, READ: every weakly fair execution of the program terminates with the result buffer at `result` of the
    arguments and the arguments unchanged. -/
theorem run : θ_run defs (onTc (τ := τ) (main (F := Ideal))) ⟨m, fun _ => 0, ρ⟩ fun r => ∀ c : Dev nD,
      r.2.mem ((c.tc : Thread nD τ).loc main_v2) = result (input m c) (weightArg m c) (matrixArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Arr

end
-- ==== Proof.RefGate.lean ====
/-
  The reference at one entry of its result.

  The host program squares the input, sums each row of 2048 entries, divides by the row length, adds the
  stabiliser and takes the square root; divides the input by that, broadcast back along the rows; multiplies by the
  weight, broadcast along the two leading axes; contracts the last axis against the last axis of the matrix;
  multiplies by the scale; and takes the hyperbolic tangent.  Read at the entry `(b, s, e)` this is the gate of
  expert `e` on the row `(b, s)` of the input.
-/
import proofs.«181583_j57784490000784_1_alg».proof.Proof.Gen.ReferenceIdeal.Read
import proofs.«181583_j57784490000784_1_alg».proof.Proof.RouterSpec

noncomputable section

open scoped BigOperators

namespace Cert.ReferenceIdeal.RefValue

open Cert.ReferenceIdeal Cert.ReferenceIdeal.Gen Cert.ReferenceIdeal.Read Idealize.ShloMosaic Idealize.ShloMosaic.ValueIdx

/-- The three literals of the program at the ideal values: the row length, the stabiliser, the scale. -/
abbrev cN : EReal := Ideal.ofBits .f32 0x45000000#32
abbrev cEps : EReal := Ideal.ofBits .f32 0x358637BD#32
abbrev cScale : EReal := Ideal.ofBits .f32 0x40400000#32

/-- The index the row sum reads at lane `k` of row `(b, s)`. -/
theorem idx_sum (b : Fin 4) (s : Fin 8192) (u : Fin 1) (k : Fin 2048) :
    idx_main_v1 (idx_main_v2 (ix3 b s u)) k = ix3 b s k :=
  funext fun a => Fin.ext (by match a with | ⟨0, _⟩ => rfl | ⟨1, _⟩ => rfl | ⟨2, _⟩ => rfl)

/-- The root-mean-square stage at row `(b, s)`. -/
theorem rms_apply (x0 : FVec Ideal S4x8192x2048 .f32) (b : Fin 4) (s : Fin 8192) (u : Fin 1) :
    val_main_v7 (F := Ideal) x0 (ix3 b s u) = Router.rms cN cEps (fun k => x0 (ix3 b s k)) := by
  rw [val_main_v7_apply, val_main_v6_apply, val_main_v4_apply, val_main_v5_apply, val_main_cst_1_apply,
    val_main_v2_apply, val_main_v3_apply, val_main_cst_0_apply, val_main_v1_apply, val_main_cst_apply]
  unfold Router.rms
  simp only [idx_sum, val_main_v0_apply]
  show Ideal.sqrt (Ideal.div (Ideal.ofBits .f32 0x00000000#32 + _) cN + cEps) = _
  rw [Ideal.ofBits_zero_f32, zero_add]
  rfl

/-- The broadcast root-mean-square at `(b, s, k)` is the one of row `(b, s)`. -/
theorem idx_rms (b : Fin 4) (s : Fin 8192) (k : Fin 2048) : idx_main_v8 (ix3 b s k) = ix3 b s (0 : Fin 1) :=
  funext fun a => Fin.ext (by match a with | ⟨0, _⟩ => rfl | ⟨1, _⟩ => rfl | ⟨2, _⟩ => rfl)

/-- The broadcast weight at `(b, s, k)` is the weight at `k`. -/
theorem idx_weight (b : Fin 4) (s : Fin 8192) (k : Fin 2048) : idx_main_v10 (idx_main_v11 (ix3 b s k)) = ix1 k :=
  funext fun a => Fin.ext (by match a with | ⟨0, _⟩ => rfl)

/-- The normalised, weighted input at `(b, s, k)`. -/
theorem normed_apply (x0 : FVec Ideal S4x8192x2048 .f32) (x1 : FVec Ideal S2048 .f32) (b : Fin 4) (s : Fin 8192) (k : Fin 2048) :
    val_main_v12 (F := Ideal) x0 x1 (ix3 b s k)
      = Ideal.div (x0 (ix3 b s k)) (Router.rms cN cEps (fun j => x0 (ix3 b s j))) * x1 (ix1 k) := by
  rw [val_main_v12_apply, val_main_v9_apply, val_main_v8_apply, val_main_v11_apply, val_main_v10_apply, idx_rms, idx_weight,
    rms_apply]
  rfl

/-- The operand indices of the contraction at `(b, s, e)` and lane `k`. -/
theorem idx_lhs (b : Fin 4) (s : Fin 8192) (e : Fin 4) (k : Fin 2048) : lidx_main_v13 (ix3 b s e) k = ix3 b s k :=
  funext fun a => Fin.ext (by match a with | ⟨0, _⟩ => rfl | ⟨1, _⟩ => rfl | ⟨2, _⟩ => rfl)
theorem idx_rhs (b : Fin 4) (s : Fin 8192) (e : Fin 4) (k : Fin 2048) : ridx_main_v13 (ix3 b s e) k = ix2 e k :=
  funext fun a => Fin.ext (by match a with | ⟨0, _⟩ => rfl | ⟨1, _⟩ => rfl)

/-- THE REFERENCE AT AN ENTRY: the gate of expert `e` on the row `(b, s)`. -/
theorem result_apply (x0 : FVec Ideal S4x8192x2048 .f32) (x1 : FVec Ideal S2048 .f32) (x2 : FVec Ideal S4x2048 .f32)
    (b : Fin 4) (s : Fin 8192) (e : Fin 4) :
    val_main_v16 (F := Ideal) x0 x1 x2 (ix3 b s e)
      = Router.gate cN cEps cScale (fun k => x0 (ix3 b s k)) (fun k => x1 (ix1 k)) (fun e k => x2 (ix2 e k)) e := by
  rw [val_main_v16_apply, val_main_v15_apply, val_main_v13_apply, val_main_v14_apply, val_main_cst_2_apply]
  unfold Router.gate
  refine congrArg (fun t => Ideal.tanh (t * cScale)) (Finset.sum_congr rfl fun k _ => ?_)
  rw [idx_lhs, idx_rhs, normed_apply]

end Cert.ReferenceIdeal.RefValue

end
-- ==== Proof.lean ====
/-
  A routing gate: RMS-normalise each row of the input, weight it, project it onto four experts, scale by three and
  take the hyperbolic tangent — as a tiled kernel over the flattened rows, against the same formula on the host.

  Over the extended reals both programs compute, at the entry `(b, s, e)`,

      tanh ((Σ_k (x_{b s k} / sqrt ((Σ_j x_{b s j}²) / 2048 + ε) · g_k) · W_{e k}) · 3),

  with the same three constants (the words of 2048, of ε and of 3 are the same on both sides) and the same order of
  operations, so the two results are one term of the arguments and no law of arithmetic, and so no finiteness of
  the inputs, is used.  What differs is layout only.  The kernel flattens the leading axes `(b, s)` into the row
  `r = 8192 b + s`, walks the rows in sixteen blocks of 2048, and in each block takes the row sums by a lane
  reduction, broadcasts the column of root-mean-squares back across the lanes, and contracts against the transposed
  matrix into a zero accumulator; the host keeps three axes, broadcasts along them and contracts the last axis
  directly.  Read at an entry, each of these is the row's own sum, the row's own root-mean-square, and the sum over
  the lanes against row `e` of the matrix.

  The modules: the gate of one row and the layout steps read at an index (RouterSpec, Flatten, and the row-wise
  matrix product of LibRowOps); the kernel's stored value at an entry (KernelBody); the kernel's output array after
  the sixteen write-backs (KernelArray) and the program's result through the two host reshapes (KernelRun); the host
  program at an entry (RefGate).  Here: the two results are equal entry by entry, and the five claims.
-/
import proofs.«181583_j57784490000784_1_alg».proof.Defs
import proofs.«181583_j57784490000784_1_alg».proof.Proof.Gen.Kernel
import proofs.«181583_j57784490000784_1_alg».proof.Proof.Gen.Kernel.Frame
import proofs.«181583_j57784490000784_1_alg».proof.Proof.Gen.KernelIdeal
import proofs.«181583_j57784490000784_1_alg».proof.Proof.Gen.KernelIdeal.Frame
import proofs.«181583_j57784490000784_1_alg».proof.Proof.Gen.ReferenceIdeal
import proofs.«181583_j57784490000784_1_alg».proof.Proof.Gen.Pre_finite_inputs
import proofs.«181583_j57784490000784_1_alg».proof.Proof.Gen.ReferenceIdeal.Run
import proofs.«181583_j57784490000784_1_alg».proof.Proof.Gen.ReferenceIdeal.Read
import proofs.«181583_j57784490000784_1_alg».proof.Proof.KernelRun
import proofs.«181583_j57784490000784_1_alg».proof.Proof.RefGate

noncomputable section

namespace Cert.Proof

open Idealize.ShloMosaic Idealize.ShloMosaic.TcCoe Idealize.SL.Sem Idealize.ShloMosaic.ValueIdx

/-- The host program's result and the kernel program's are one function of the arguments: at `(b, s, e)` both are the
    gate of expert `e` on row `(b, s)` of the input — the kernel's through row `8192 b + s` of the flattened input. -/
theorem result_eq (x : FVec Ideal Cert.KernelIdeal.S4x8192x2048 .f32) (g : FVec Ideal Cert.KernelIdeal.S2048 .f32)
    (W : FVec Ideal Cert.KernelIdeal.S4x2048 .f32) :
    Cert.ReferenceIdeal.Read.val_main_v16 (F := Ideal) x g W = Cert.KernelIdeal.Arr.result x g W := by
  funext i
  obtain ⟨b, s, e, rfl⟩ : ∃ (b : Fin 4) (s : Fin 8192) (e : Fin 4), i = ix3 b s e := ⟨i 0, i 1, i 2, eq_ix3 i⟩
  have hr : b.val * 8192 + s.val < 32768 := by have := b.isLt; have := s.isLt; omega
  rw [Cert.ReferenceIdeal.RefValue.result_apply]
  unfold Cert.KernelIdeal.Arr.result
  rw [Router.unflatten_apply _ _ b s e ⟨b.val * 8192 + s.val, hr⟩ rfl]
  unfold Cert.KernelIdeal.Arr.gates
  refine Router.gate_congr _ _ _ (fun k => ?_) (fun k => rfl) (fun e k => rfl) rfl
  exact (Router.flatten_apply x _ b s k _ rfl).symm

theorem frame_kernel : Cert.frame_Kernel := fun m ρ _ => Cert.Kernel.Gen.frame m ρ

theorem frame_kernelIdeal : Cert.frame_KernelIdeal := fun m ρ _ => Cert.KernelIdeal.Gen.frame m ρ

/-- The host program's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result buffer at the gates of the input's rows: the kernel's run states it of its
    arguments, the host's of its own, which agree. -/
theorem algebraic : Cert.algebraic_KernelIdeal_ReferenceIdeal := by
  intro m ρ m' ρ' _ hagree
  refine ⟨fun c => Cert.KernelIdeal.Arr.result (Cert.KernelIdeal.Arr.input m c) (Cert.KernelIdeal.Arr.weightArg m c)
    (Cert.KernelIdeal.Arr.matrixArg m c), Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2.1, (hagree c).2.2]
  exact result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
